-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S1x16384 : Shape := ⟨2, ![1, 16384]⟩
abbrev S8192x256 : Shape := ⟨2, ![8192, 256]⟩
abbrev S1x256 : Shape := ⟨2, ![1, 256]⟩
abbrev S256 : Shape := ⟨1, ![256]⟩
abbrev S1x1 : Shape := ⟨2, ![1, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x16384, .f32⟩
  | .hbm, ⟨1, _⟩ => ⟨S1x16384, .f32⟩
  | .hbm, ⟨2, _⟩ => ⟨S1x1, .f32⟩
  | .hbm, ⟨3, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S1x256, .f32⟩
  | .local _ .vmem, ⟨3, _⟩ => ⟨S1x256, .f32⟩
  | .local _ .vmem, ⟨4, _⟩ => ⟨S1x16384, .f32⟩
  | .local _ .vmem, ⟨5, _⟩ => ⟨S1x1, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S8192x256_S8192x256_0_0 : ∀ a, (![0, 0] : Fin 2 → Nat) a + S8192x256.size a ≤ S8192x256.size a
  h_S8192x256 : 0 < S8192x256.numel
  reduces_S8192x256_S256 : S8192x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  reduces_S1x16384_S1 : S1x16384.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x16384.size a
  hwx0_0 : ∀ i : grid0.Coords, EltTy.bits .f32 = 32 ∨ (Rect.block (s := S8192x16384) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x16384.size a
  hwx0_1 : ∀ i : grid0.Coords, EltTy.bits .f32 = 32 ∨ (Rect.block (s := S1x16384) S1x256.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x16384.size a ≤ S1x16384.size a
  hwx1_0 : ∀ i : grid1.Coords, EltTy.bits .f32 = 32 ∨ (Rect.block (s := S1x16384) S1x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x16384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x16384 : Shape := ⟨2, ![8192, 16384]⟩
abbrev S_ : Shape := ⟨0, ![]⟩
abbrev S16384 : Shape := ⟨1, ![16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .hbm, ⟨2, _⟩ => ⟨S_, .f32⟩
  | .hbm, ⟨3, _⟩ => ⟨S16384, .f32⟩
  | .hbm, ⟨4, _⟩ => ⟨S16384, .f32⟩
  | .hbm, ⟨5, _⟩ => ⟨S_, .f32⟩
  | .hbm, ⟨6, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x16384_S16384_d0 : S8192x16384.ReducesTo [0] S16384
  h_S_ : 0 < S_.numel
  reducesTo_S16384_S_d0 : S16384.ReducesTo [0] S_

variable [Facts₀]

class Facts : Prop extends Facts₀ where

variable [Facts]
-- ==== Proof.ColumnNorms.lean ====
/-
  The quantity both programs compute, stated once over the extended reals: for an 8192 × 16384 array `S`,
  the sum over the 16384 columns `j` of the square root of the column's sum of squares,
      ∑ j, √(∑ i, S i j · S i j).
  No program is imported here: only the index constructors and the exact float operations.
-/
import Idealize.ShloMosaic.PureOps.Ideal
import Idealize.ShloMosaic.PureOps.Ideal.Laws
import Idealize.ShloMosaic.Lib.ValueIdx

noncomputable section

namespace Cert.ColumnNorms

open Idealize.ShloMosaic Idealize.ShloMosaic.ValueIdx

/-- The sum of the squares of column `j`: the 8192 entries of the column, each multiplied by itself, added. -/
def colSq (S : (⟨2, ![8192, 16384]⟩ : Shape).Idx → EReal) (j : Fin 16384) : EReal :=
  ∑ i : Fin 8192, S (ix2 i j) * S (ix2 i j)

/-- The sum over all columns of the square root of the column's sum of squares. -/
def normSum (S : (⟨2, ![8192, 16384]⟩ : Shape).Idx → EReal) : EReal :=
  ∑ j : Fin 16384, Ideal.sqrt (colSq S j)

/-- The row of column sums of squares as a 1 × 16384 array: what the first stage leaves for the second. -/
def colSqRow (S : (⟨2, ![8192, 16384]⟩ : Shape).Idx → EReal) : (⟨2, ![1, 16384]⟩ : Shape).Idx → EReal :=
  fun y => colSq S (y 1)

/-- The final 1 × 1 array: the sum of the square roots of a row's entries, at its one index. -/
def rootSum (R : (⟨2, ![1, 16384]⟩ : Shape).Idx → EReal) : (⟨2, ![1, 1]⟩ : Shape).Idx → EReal :=
  fun _ => ∑ j : Fin 16384, Ideal.sqrt (R (ix2 (0 : Fin 1) j))

/-- The second stage applied to the first stage's row is the whole quantity. -/
theorem rootSum_colSqRow (S : (⟨2, ![8192, 16384]⟩ : Shape).Idx → EReal) (y : (⟨2, ![1, 1]⟩ : Shape).Idx) :
    rootSum (colSqRow S) y = normSum S := rfl

end Cert.ColumnNorms

end
-- ==== Proof.StageMath.lean ====
/-
  The two kernel bodies' arithmetic read at an index, over vectors of the literal block shapes and with no
  program imported.
  Stage one: a block of 8192 rows and 256 columns is squared entry by entry, added down its rows, and the
  resulting 256 sums are laid out as a 1 × 256 row; at column `q` the row holds the sum over the 8192 rows
  of the square of the block's entry in that column.
  Stage two: a 1 × 16384 row has the square root taken entry by entry, the roots are added along the row, and
  the one sum is laid out as a 1 × 1 array; its one entry is the sum of the 16384 roots.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.StageMath

open Idealize.ShloMosaic Idealize.ShloMosaic.ValueIdx

/-- Inserting row `k` above column `q` of a 256-vector's index gives the block index (k, q). -/
theorem lift_rows (h : Shape.Reduces ⟨2, ![8192, 256]⟩ [0] ⟨1, ![256]⟩) (q : Fin 256) (k : Fin 8192) :
    h.lift (ix1 q) k = ix2 k q := by
  funext a
  apply Fin.ext
  match a with
  | ⟨0, _⟩ => rfl
  | ⟨1, _⟩ => rfl

/-- Stage one at column `q`: the sum down the rows of the squared entries. -/
theorem squares_down_rows (v : FVec Ideal ⟨2, ![8192, 256]⟩ .f32)
    (h : Shape.Reduces ⟨2, ![8192, 256]⟩ [0] ⟨1, ![256]⟩)
    (hc : (⟨1, ![256]⟩ : Shape).ShapeCasts ⟨2, ![1, 256]⟩) (u : Fin 1) (q : Fin 256) :
    shapeCast ⟨2, ![1, 256]⟩ (multiReduction .add [0] ⟨1, ![256]⟩ (mulf v v) 0x00000000#32 h (.inl rfl) rfl) hc (ix2 u q)
      = ∑ k : Fin 8192, v (ix2 k q) * v (ix2 k q) := by
  rw [shapeCast_a_1a_apply]
  refine (Ideal.multiReduction_add_single (mulf v v) 0x00000000#32 h (.inl rfl) rfl (ix1 q)).trans ?_
  refine Finset.sum_congr rfl fun k _ => ?_
  rw [lift_rows h q k]
  rfl

/-- Inserting column `j` beside the one row of a 1-vector's index gives the row index (0, j). -/
theorem lift_cols (h : Shape.Reduces ⟨2, ![1, 16384]⟩ [1] ⟨1, ![1]⟩) (u : Fin 1) (j : Fin 16384) :
    h.lift (ix1 u) j = ix2 (0 : Fin 1) j := by
  funext a
  apply Fin.ext
  match a with
  | ⟨0, _⟩ => show (u : Nat) = 0; omega
  | ⟨1, _⟩ => rfl

/-- Stage two at its one index: the sum along the row of the square roots. -/
theorem roots_along_row (v : FVec Ideal ⟨2, ![1, 16384]⟩ .f32)
    (hs : (⟨2, ![1, 16384]⟩ : Shape).ShapeCasts ⟨2, ![1, 16384]⟩)
    (h : Shape.Reduces ⟨2, ![1, 16384]⟩ [1] ⟨1, ![1]⟩)
    (hc : (⟨1, ![1]⟩ : Shape).ShapeCasts ⟨2, ![1, 1]⟩) (u w : Fin 1) :
    shapeCast ⟨2, ![1, 1]⟩ (multiReduction .add [1] ⟨1, ![1]⟩ (sqrt (shapeCast ⟨2, ![1, 16384]⟩ v hs)) 0x00000000#32 h (.inl rfl) rfl) hc (ix2 u w)
      = ∑ j : Fin 16384, Ideal.sqrt (v (ix2 (0 : Fin 1) j)) := by
  rw [shapeCast_a_1a_apply, shapeCast_self]
  refine (Ideal.multiReduction_add_single (sqrt v) 0x00000000#32 h (.inl rfl) rfl (ix1 w)).trans ?_
  refine Finset.sum_congr rfl fun j _ => ?_
  rw [lift_cols h w j]
  rfl

end Cert.StageMath

end
-- ==== Proof.StageOne.lean ====
/-
  The first stage's result array. The grid has 64 points; point `t` reads the block of all 8192 rows and
  columns 256·t … 256·t + 255 of the argument and writes columns 256·t … 256·t + 255 of a 1 × 16384 row:
  at column `q` of its block, the sum down the 8192 rows of the squared entries of block column `q`. The 64
  written blocks tile the row, so after the stage the row holds, at every column `j`, the sum of squares of
  column `j` of the argument.
-/
import proofs.«153098_j34316788695050_1_alg».proof.Proof.Gen.KernelIdeal.Frame
import proofs.«153098_j34316788695050_1_alg».proof.Proof.ColumnNorms
import proofs.«153098_j34316788695050_1_alg».proof.Proof.StageMath
import Idealize.ShloMosaic.Lib.Pipeline.Value

set_option maxRecDepth 16384

noncomputable section

namespace Cert.KernelIdeal.StageOne

open Cert.KernelIdeal Cert.KernelIdeal.Gen Cert.ColumnNorms
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The argument array on core `c`, as a function of its two coordinates. -/
abbrev arg (c : Dev nD) : S8192x16384.Idx → EReal := m ((c : Thread nD τ).loc main_arg0)

/-- At point `t` both windows sit at block row 0 and block column `t`. -/
theorem block_position : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Entry (k, q) of the input block at point `t` is entry (k, 256·t + q) of the argument. -/
theorem block_entry (c : Dev nD) (t : Fin cfg0.N) (k : Fin 8192) (q : Fin 256) (j : Fin 16384)
    (hj : j.val = t.val * 256 + q.val) :
    (iblk0 (V0 m ρ) c 0 t : Vec Ideal S8192x256 .f32) (ix2 k q) = arg m c (ix2 k j) := by
  obtain ⟨e0, e1, -, -⟩ := block_position t
  unfold iblk0
  rw [View.read_apply]
  show m ((c : Thread nD τ).loc main_arg0) _ = m ((c : Thread nD τ).loc main_arg0) _
  congr 1
  funext a
  apply Fin.ext
  match a with
  | ⟨0, _⟩ => show win0_0.index t (0 : Fin 2) * 8192 + 1 * k.val = k.val; rw [e0]; omega
  | ⟨1, _⟩ => show win0_0.index t (1 : Fin 2) * 256 + 1 * q.val = j.val; rw [e1, hj]; omega

/-- The body's stored value at column `q`, for any block whose column `q` is column `j` of an array `S`:
    the sum of squares of column `j` of `S`. -/
theorem stored_entry (x : FVec Ideal S8192x256 .f32) (S : S8192x16384.Idx → EReal) (u : Fin 1) (q : Fin 256)
    (a : Fin 1) (j : Fin 16384) (hx : ∀ k : Fin 8192, x (ix2 k q) = S (ix2 k j)) :
    k0_pay1 (F := Ideal) x (ix2 u q) = colSqRow S (ix2 a j) := by
  unfold k0_pay1
  refine (Cert.StageMath.squares_down_rows x _ _ u q).trans ?_
  unfold colSqRow colSq
  refine Finset.sum_congr rfl fun k _ => ?_
  rw [hx k]

/-- What point `t` writes back is block `t` of the row of column sums of squares. -/
theorem flushed_row (c : Dev nD) (t : Fin cfg0.N) :
    (dat0 (V0 m ρ) c).flushed 1 t = ((cfg0.win 1).blk t).view.read (Elt Ideal) (colSqRow (arg m c)) := by
  show (cfg0.win 1).cut (grid0.coords t) ((dat0 (V0 m ρ) c).after 1 t) = _
  rw [after0_1]
  unfold out0_1
  rw [View.canon_unit_zero offsets_zero]
  simp only [View.ld_unit_zero (S := S8192x256) offsets_zero]
  refine funext fun (y : S1x256.Idx) => ?_
  obtain ⟨u, q, rfl⟩ : ∃ (u : Fin 1) (q : Fin 256), y = ix2 u q := ⟨y 0, y 1, eq_ix2 y⟩
  rw [View.read_apply]
  obtain ⟨-, -, e2, e3⟩ := block_position t
  have hq : q.val < 256 := q.isLt
  have ht : t.val < 64 := lt_of_lt_of_eq t.isLt N_0
  have hemb : ((cfg0.win 1).blk t).view.emb (ix2 u q)
      = ix2 (0 : Fin 1) (⟨t.val * 256 + q.val, by omega⟩ : Fin 16384) := by
    funext a
    apply Fin.ext
    match a with
    | ⟨0, _⟩ => show win0_1.index t (0 : Fin 2) * 1 + 1 * u.val = 0; rw [e2]; omega
    | ⟨1, _⟩ => show win0_1.index t (1 : Fin 2) * 256 + 1 * q.val = t.val * 256 + q.val; rw [e3]; omega
  rw [hemb]
  exact stored_entry (iblk0 (V0 m ρ) c 0 t) (arg m c) u q 0 _ (fun k => block_entry m ρ c t k q _ rfl)

/-- Every column of the row lies in the block of the point that is the column's number divided by 256. -/
theorem row_covered (i : S1x16384.Idx) :
    ∃ t : Fin cfg0.N, (cfg0.win 1).flush t = true ∧ i ∈ ((cfg0.win 1).blk t).view.set := by
  have hi0 : (i 0).val < 1 := (i 0).isLt
  have hi1 : (i 1).val < 16384 := (i 1).isLt
  have hN : cfg0.N = 64 := N_0
  obtain ⟨t, ht⟩ : ∃ t : Fin cfg0.N, t.val = (i 1).val / 256 := ⟨⟨(i 1).val / 256, by rw [hN]; omega⟩, rfl⟩
  obtain ⟨-, -, e2, e3⟩ := block_position t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 1 ≤ (i 0).val ∧ (i 0).val < win0_1.index t (0 : Fin 2) * 1 + 1; rw [e2]; omega
  | ⟨1, _⟩ => show win0_1.index t (1 : Fin 2) * 256 ≤ (i 1).val ∧ (i 1).val < win0_1.index t (1 : Fin 2) * 256 + 256; rw [e3, ht]; omega

/-- After the first stage the row holds every column's sum of squares. -/
theorem row_after (c : Dev nD) : (dat0 (V0 m ρ) c).arrAt 1 cfg0.N = colSqRow (arg m c) :=
  (dat0 (V0 m ρ) c).arrAt_eq_of_cover 1 (colSqRow (arg m c)) (fun t _ => flushed_row m ρ c t) row_covered

end Cert.KernelIdeal.StageOne

end
-- ==== Proof.StageTwo.lean ====
/-
  The second stage and the closing reshape. The second stage's grid has one point: it reads the whole 1 × 16384
  row the first stage left (the column sums of squares of the argument), takes the square root of every entry,
  adds the 16384 roots and writes the sum as a 1 × 1 array; its one block is the whole array. The closing host
  reshape reads that one entry as the scalar result, which is therefore the column-norm sum of the argument.
-/
import proofs.«153098_j34316788695050_1_alg».proof.Proof.StageOne

set_option maxRecDepth 16384

noncomputable section

namespace Cert.KernelIdeal.StageTwo

open Cert.KernelIdeal Cert.KernelIdeal.Gen Cert.ColumnNorms Cert.KernelIdeal.StageOne
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The row the second stage is entered with: the first stage's result. -/
theorem row_entering (c : Dev nD) : V1 m ρ c main_v0 = colSqRow (arg m c) :=
  (W1_arr m ρ c 1).trans (row_after m ρ c)

/-- At the one point both windows sit at block (0, 0). -/
theorem block_position : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- Entry (0, j) of the input block is entry (0, j) of the row of column sums of squares. -/
theorem block_entry (c : Dev nD) (t : Fin cfg1.N) (j : Fin 16384) :
    (iblk1 (V1 m ρ) c 0 t : Vec Ideal S1x16384 .f32) (ix2 (0 : Fin 1) j) = colSqRow (arg m c) (ix2 (0 : Fin 1) j) := by
  obtain ⟨e0, e1, -, -⟩ := block_position t
  unfold iblk1
  rw [View.read_apply]
  show V1 m ρ c main_v0 _ = _
  rw [row_entering m ρ c]
  congr 1
  funext a
  apply Fin.ext
  match a with
  | ⟨0, _⟩ => show win1_0.index t (0 : Fin 2) * 1 + 1 * 0 = 0; rw [e0]
  | ⟨1, _⟩ => show win1_0.index t (1 : Fin 2) * 16384 + 1 * j.val = j.val; rw [e1]; omega

/-- The body's stored value at its one index, for any block that agrees with a row `R` entry by entry: the sum
    of the square roots of `R`'s entries. -/
theorem stored_total (x : FVec Ideal S1x16384 .f32) (R : S1x16384.Idx → EReal) (u w : Fin 1) (i : S1x1.Idx)
    (hx : ∀ j : Fin 16384, x (ix2 (0 : Fin 1) j) = R (ix2 (0 : Fin 1) j)) :
    k1_pay1 (F := Ideal) x (ix2 u w) = rootSum R i := by
  unfold k1_pay1
  refine (Cert.StageMath.roots_along_row x _ _ _ u w).trans ?_
  unfold rootSum
  exact Finset.sum_congr rfl fun j _ => by rw [hx j]

/-- What the one point writes back is the 1 × 1 array of the sum of roots, read through its block. -/
theorem flushed_total (c : Dev nD) (t : Fin cfg1.N) :
    (dat1 (V1 m ρ) c).flushed 1 t = ((cfg1.win 1).blk t).view.read (Elt Ideal) (rootSum (colSqRow (arg m c))) := by
  show (cfg1.win 1).cut (grid1.coords t) ((dat1 (V1 m ρ) c).after 1 t) = _
  rw [after1_1]
  unfold out1_1
  rw [View.canon_unit_zero offsets_zero]
  simp only [View.ld_unit_zero (S := S1x16384) offsets_zero]
  refine funext fun (y : S1x1.Idx) => ?_
  obtain ⟨u, w, rfl⟩ : ∃ (u : Fin 1) (w : Fin 1), y = ix2 u w := ⟨y 0, y 1, eq_ix2 y⟩
  rw [View.read_apply]
  obtain ⟨-, -, e2, e3⟩ := block_position t
  have hemb : ((cfg1.win 1).blk t).view.emb (ix2 u w) = ix2 (0 : Fin 1) (0 : Fin 1) := by
    funext a
    apply Fin.ext
    match a with
    | ⟨0, _⟩ => show win1_1.index t (0 : Fin 2) * 1 + 1 * u.val = 0; rw [e2]; omega
    | ⟨1, _⟩ => show win1_1.index t (1 : Fin 2) * 1 + 1 * w.val = 0; rw [e3]; omega
  rw [hemb]
  have hself : (win1 1).xinj (grid1.coords t) (ix2 u w) = ix2 u w :=
    funext fun a => Fin.ext (by match a with | ⟨0, _⟩ => rfl | ⟨1, _⟩ => rfl)
  show k1_pay1 (F := Ideal) (iblk1 (V1 m ρ) c 0 t) ((win1 1).xinj (grid1.coords t) (ix2 u w)) = _
  rw [hself]
  refine Eq.trans ?_ (cast_eq _ _).symm
  exact stored_total (iblk1 (V1 m ρ) c 0 t) (colSqRow (arg m c)) u w (ix2 (0 : Fin 1) (0 : Fin 1))
    (fun j => block_entry m ρ c t j)

/-- The one block is the whole 1 × 1 array. -/
theorem total_covered (i : S1x1.Idx) :
    ∃ t : Fin cfg1.N, (cfg1.win 1).flush t = true ∧ i ∈ ((cfg1.win 1).blk t).view.set := by
  have hi0 : (i 0).val < 1 := (i 0).isLt
  have hi1 : (i 1).val < 1 := (i 1).isLt
  obtain ⟨-, -, e2, e3⟩ := block_position t1_0
  refine ⟨t1_0, flush1_1 t1_0, ?_⟩
  show i ∈ ((View.whole main_v1).slice (win1_1.rect t1_0)).set
  rw [View.set_slice_whole, Rect.mem_set_unit]
  intro a
  match a with
  | ⟨0, _⟩ => show win1_1.index t1_0 (0 : Fin 2) * 1 ≤ (i 0).val ∧ (i 0).val < win1_1.index t1_0 (0 : Fin 2) * 1 + 1; rw [e2]; omega
  | ⟨1, _⟩ => show win1_1.index t1_0 (1 : Fin 2) * 1 ≤ (i 1).val ∧ (i 1).val < win1_1.index t1_0 (1 : Fin 2) * 1 + 1; rw [e3]; omega

/-- After the second stage the 1 × 1 array holds the sum of roots of the column sums of squares. -/
theorem total_after (c : Dev nD) : (dat1 (V1 m ρ) c).arrAt 1 cfg1.N = rootSum (colSqRow (arg m c)) :=
  (dat1 (V1 m ρ) c).arrAt_eq_of_cover 1 (rootSum (colSqRow (arg m c))) (fun t _ => flushed_total m ρ c t) total_covered

/-- The 1 × 1 array as the closing reshape finds it. -/
theorem total_entering (c : Dev nD) : W2 m ρ c (Proc.devRef .tc main_v1) = rootSum (colSqRow (arg m c)) :=
  (W2_arr m ρ c 1).trans (total_after m ρ c)

/-- The scalar result at the last boundary: the column-norm sum of the argument. -/
theorem result_value (c : Dev nD) :
    W3 m ρ c (Proc.devRef .tc main_v2) = fun _ => normSum (arg m c) := by
  show StableHlo.after hostOps2 (W2 m ρ c) (Proc.devRef .tc main_v2) = _
  after_results
  rw [total_entering m ρ c]
  rfl

end Cert.KernelIdeal.StageTwo

end
-- ==== Proof.ReferenceValue.lean ====
/-
  The reference program's result at the exact values. Its six host operations square the argument entry by
  entry, add the squares down each column starting from zero, take the square root of each of the 16384 column
  sums, and add the roots starting from zero. Read one operation at a time, the scalar result is
      0 + ∑ j, √(0 + ∑ i, S i j · S i j),
  which is the column-norm sum of the argument.
-/
import proofs.«153098_j34316788695050_1_alg».proof.Defs
import proofs.«153098_j34316788695050_1_alg».proof.Proof.Gen.ReferenceIdeal.Run
import proofs.«153098_j34316788695050_1_alg».proof.Proof.Gen.ReferenceIdeal.Read
import proofs.«153098_j34316788695050_1_alg».proof.Proof.ColumnNorms

noncomputable section

namespace Cert.ReferenceIdeal.ColumnNormValue

open Cert.ReferenceIdeal Cert.ReferenceIdeal.Read Cert.ColumnNorms
open Idealize.ShloMosaic Idealize.ShloMosaic.ValueIdx

/-- The indices of a vector of length `n` are its `n` coordinates. -/
def vectorIdx (n : Nat) : (⟨1, ![n]⟩ : Shape).Idx ≃ Fin n where
  toFun j := j 0
  invFun := ix1
  left_inv j := (eq_ix1 j).symm
  right_inv _ := rfl

/-- The index the column reduction reads for row `k` of column `j` is (k, j). -/
theorem column_index (j : S16384.Idx) (k : Fin 8192) : idx_main_v1 j k = ix2 k (j 0) :=
  funext fun a => Fin.ext (by match a with | ⟨0, _⟩ => rfl | ⟨1, _⟩ => rfl)

/-- Entry `j` of the vector of roots is the square root of column `j`'s sum of squares. -/
theorem root_entry (S : S8192x16384.Idx → EReal) (j : S16384.Idx) :
    val_main_v2 (F := Ideal) S j = Ideal.sqrt (colSq S (j 0)) := by
  rw [val_main_v2_apply, val_main_v1_apply, val_main_cst_apply]
  show Ideal.sqrt (Ideal.ofBits .f32 0x00000000#32 + _) = _
  rw [Ideal.ofBits_zero_f32, zero_add]
  unfold colSq
  refine congrArg Ideal.sqrt (Finset.sum_congr rfl fun k _ => ?_)
  rw [val_main_v0_apply, column_index]
  rfl

/-- The reference's scalar result is the column-norm sum of its argument. -/
theorem result_eq (S : S8192x16384.Idx → EReal) :
    val_main_v3 (F := Ideal) S = fun _ => normSum S := by
  funext i
  rw [val_main_v3_apply, val_main_cst_0_apply]
  show Ideal.ofBits .f32 0x00000000#32 + _ = _
  rw [Ideal.ofBits_zero_f32, zero_add]
  unfold normSum
  exact Fintype.sum_equiv (vectorIdx 16384) _ _ fun j => root_entry S j

end Cert.ReferenceIdeal.ColumnNormValue

end
-- ==== Proof.lean ====
/-
  Both programs compute, for an 8192 × 16384 array S of finite numbers, the sum over the columns j of
  √(∑ i, S i j · S i j). The kernel does it in two stages: 64 column tiles each reduce their 8192 × 256 block to
  256 column sums of squares, and a single-block stage takes the roots of the 16384 sums and adds them; a reshape
  reads the 1 × 1 result as a scalar. The reference squares, reduces down the columns, takes roots and reduces again.
  Over the extended reals both are the same finite sums of the same terms, so no precondition is used.
-/
import proofs.«153098_j34316788695050_1_alg».proof.Defs
import proofs.«153098_j34316788695050_1_alg».proof.Proof.Gen.Kernel
import proofs.«153098_j34316788695050_1_alg».proof.Proof.Gen.Kernel.Skeleton
import proofs.«153098_j34316788695050_1_alg».proof.Proof.Gen.Kernel.Launch
import proofs.«153098_j34316788695050_1_alg».proof.Proof.Gen.Kernel.Points
import proofs.«153098_j34316788695050_1_alg».proof.Proof.Gen.Kernel.Frame
import proofs.«153098_j34316788695050_1_alg».proof.Proof.Gen.KernelIdeal
import proofs.«153098_j34316788695050_1_alg».proof.Proof.Gen.KernelIdeal.Skeleton
import proofs.«153098_j34316788695050_1_alg».proof.Proof.Gen.KernelIdeal.Launch
import proofs.«153098_j34316788695050_1_alg».proof.Proof.Gen.KernelIdeal.Points
import proofs.«153098_j34316788695050_1_alg».proof.Proof.Gen.KernelIdeal.Frame
import proofs.«153098_j34316788695050_1_alg».proof.Proof.Gen.ReferenceIdeal
import proofs.«153098_j34316788695050_1_alg».proof.Proof.Gen.Pre_finite_inputs
import proofs.«153098_j34316788695050_1_alg».proof.Proof.KernelRun
import proofs.«153098_j34316788695050_1_alg».proof.Proof.StageTwo
import proofs.«153098_j34316788695050_1_alg».proof.Proof.ReferenceValue
import Idealize.ShloMosaic.Adequacy
import Idealize.ShloMosaic.Init

noncomputable section

namespace Cert.Proof

open Idealize.ShloMosaic Idealize.SL.Sem

/-- The word-level kernel terminates without a fault and leaves its argument as launched. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- The reference is a straight line of host operations; its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the column-norm sum of that argument as
    their scalar result. -/
theorem algebraic : Cert.algebraic_KernelIdeal_ReferenceIdeal := by
  intro m ρ m' ρ' _ hagree
  refine ⟨fun c => fun _ => Cert.ColumnNorms.normSum (Cert.KernelIdeal.StageOne.arg m c), ?_, ?_⟩
  · exact (θ_run Cert.KernelIdeal.defs _ _).mono
      (fun _ h c => ⟨(h c).1.trans (Cert.KernelIdeal.StageTwo.result_value m ρ c), (h c).2⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, Cert.ReferenceIdeal.ColumnNormValue.result_eq, hagree c]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
